-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S2x64x512 : Shape := ⟨3, ![2, 64, 512]⟩
abbrev S512x1024 : Shape := ⟨2, ![512, 1024]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S2x64x512 : S_.BroadcastsInDim S2x64x512 (![] : Fin 0 → Fin S2x64x512.rank)
  reducesTo_S2x64x512_S_d0_1_2 : S2x64x512.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S16384x512 .f32) (main_arg1 : FVec F S2x64x512 .f32) (main_arg2 : FVec F S512x1024 .f32) (main_arg3 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S2x64x512 .f32 := Host.absf main_arg1
  let main_cst_0 : FVec F S_ .f32 := constant S_ .f32 0x7F800000#32
  let main_v5 : FVec F S2x64x512 .f32 := broadcastInDim S2x64x512 ![] bcast_S_S2x64x512 main_cst_0
  let main_v6 : IVec S2x64x512 1 := cmpf .olt main_v4 main_v5
  let main_c_1 : IVec S_ 1 := constantI S_ 1 1#1
  let main_v7 : IVec S_ 1 := (fun x v => Host.reduce IntOp.andi x v reducesTo_S2x64x512_S_d0_1_2 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S16384x512 : Shape := ⟨2, ![16384, 512]⟩
abbrev S2x64x512 : Shape := ⟨3, ![2, 64, 512]⟩
abbrev S512x1024 : Shape := ⟨2, ![512, 1024]⟩
abbrev S512 : Shape := ⟨1, ![512]⟩
abbrev S1x64x512 : Shape := ⟨3, ![1, 64, 512]⟩
abbrev S64x512 : Shape := ⟨2, ![64, 512]⟩
abbrev S64x1x512 : Shape := ⟨3, ![64, 1, 512]⟩
abbrev S64x64x512 : Shape := ⟨3, ![64, 64, 512]⟩
abbrev S64x64x1024 : Shape := ⟨3, ![64, 64, 1024]⟩
abbrev S4096x1024 : Shape := ⟨2, ![4096, 1024]⟩
abbrev S1x512 : Shape := ⟨2, ![1, 512]⟩
abbrev S4096x512 : Shape := ⟨2, ![4096, 512]⟩
abbrev S1024x1024 : Shape := ⟨2, ![1024, 1024]⟩
abbrev S1024x512 : Shape := ⟨2, ![1024, 512]⟩
abbrev S16384x4096 : Shape := ⟨2, ![16384, 4096]⟩
abbrev S512x512 : Shape := ⟨2, ![512, 512]⟩
abbrev S512x4096 : Shape := ⟨2, ![512, 4096]⟩
abbrev S512x1 : Shape := ⟨2, ![512, 1]⟩
abbrev S4096 : Shape := ⟨1, ![4096]⟩
abbrev S1x4096 : Shape := ⟨2, ![1, 4096]⟩

abbrev nBuf : Space → Nat
  | .hbm => 17
  | .vmem => 11
  | .smem => 0
  | _ => 0

abbrev bufTy : (tb : Table) → Fin (tcTables nBuf tb) → BufTy
  | .hbm, ⟨0, _⟩ => ⟨S16384x512, .f32⟩
  | .hbm, ⟨1, _⟩ => ⟨S2x64x512, .f32⟩
  | .hbm, ⟨2, _⟩ => ⟨S512x1024, .f32⟩
  | .hbm, ⟨3, _⟩ => ⟨S512, .f32⟩
  | .hbm, ⟨4, _⟩ => ⟨S1x64x512, .f32⟩
  | .hbm, ⟨5, _⟩ => ⟨S64x512, .f32⟩
  | .hbm, ⟨6, _⟩ => ⟨S64x1x512, .f32⟩
  | .hbm, ⟨7, _⟩ => ⟨S64x64x512, .f32⟩
  | .hbm, ⟨8, _⟩ => ⟨S1x64x512, .f32⟩
  | .hbm, ⟨9, _⟩ => ⟨S64x512, .f32⟩
  | .hbm, ⟨10, _⟩ => ⟨S1x64x512, .f32⟩
  | .hbm, ⟨11, _⟩ => ⟨S64x64x512, .f32⟩
  | .hbm, ⟨12, _⟩ => ⟨S64x64x1024, .f32⟩
  | .hbm, ⟨13, _⟩ => ⟨S4096x1024, .f32⟩
  | .hbm, ⟨14, _⟩ => ⟨S1x512, .f32⟩
  | .hbm, ⟨15, _⟩ => ⟨S4096x512, .f32⟩
  | .hbm, ⟨16, _⟩ => ⟨S16384x4096, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S1x512, .f32⟩
  | .local _ .vmem, ⟨4, _⟩ => ⟨S1024x512, .f32⟩
  | .local _ .vmem, ⟨5, _⟩ => ⟨S1024x512, .f32⟩
  | .local _ .vmem, ⟨6, _⟩ => ⟨S512x512, .f32⟩
  | .local _ .vmem, ⟨7, _⟩ => ⟨S512x512, .f32⟩
  | .local _ .vmem, ⟨8, _⟩ => ⟨S4096x512, .f32⟩
  | .local _ .vmem, ⟨9, _⟩ => ⟨S512x4096, .f32⟩
  | .local _ .vmem, ⟨10, _⟩ => ⟨S512x4096, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x64x512_S1x64x512_0_0_0 : S2x64x512.Slices ![0, 0, 0] S1x64x512
  shapeCasts_S1x64x512_S64x512 : S1x64x512.ShapeCasts S64x512
  bcast_S64x512_S64x1x512_0_2 : S64x512.BroadcastsInDim S64x1x512 (![0, 2] : Fin 2 → Fin S64x1x512.rank)
  bcast_S64x1x512_S64x64x512_0_1_2 : S64x1x512.BroadcastsInDim S64x64x512 (![0, 1, 2] : Fin 3 → Fin S64x64x512.rank)
  slices_S2x64x512_S1x64x512_1_0_0 : S2x64x512.Slices ![1, 0, 0] S1x64x512
  bcast_S64x512_S1x64x512_1_2 : S64x512.BroadcastsInDim S1x64x512 (![1, 2] : Fin 2 → Fin S1x64x512.rank)
  bcast_S1x64x512_S64x64x512_0_1_2 : S1x64x512.BroadcastsInDim S64x64x512 (![0, 1, 2] : Fin 3 → Fin S64x64x512.rank)
  concatenates_S64x64x512_S64x64x512_S64x64x1024_d2 : Shape.Concatenates [S64x64x512, S64x64x512] S64x64x1024 2
  shapeCasts_S64x64x1024_S4096x1024 : S64x64x1024.ShapeCasts S4096x1024
  shapeCasts_S512_S1x512 : S512.ShapeCasts S1x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  reduces_S512x512_S512 : S512x512.Reduces [1] S512
  shapeCasts_S512_S512x1 : S512.ShapeCasts S512x1
  reduces_S4096x512_S4096 : S4096x512.Reduces [1] S4096
  shapeCasts_S4096_S1x4096 : S4096.ShapeCasts S1x4096
  broadcasts_S512x1_S512x4096 : S512x1.Broadcasts S512x4096
  broadcasts_S1x4096_S512x4096 : S1x4096.Broadcasts S512x4096
  inb_S512x4096_S512x4096_0_0 : ∀ a, (![0, 0] : Fin 2 → Nat) a + S512x4096.size a ≤ S512x4096.size a
  h_S512x4096 : 0 < S512x4096.numel
  dot_S1024x1024_S512x1024_S1024x512_1_1_0_0_n_n_wf : DotDims.WF S1024x1024 S512x1024 S1024x512 [1] [1] [0] [0] [] []
  dot_S512x512_S4096x512_S512x4096_1_1_0_0_n_n_wf : DotDims.WF S512x512 S4096x512 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x512.size a
  hwx0_3 : ∀ i : grid0.Coords, EltTy.bits .f32 = 32 ∨ (Rect.block (s := S4096x512) S1024x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S16384x512.size a
  hwx1_0 : ∀ i : grid1.Coords, EltTy.bits .f32 = 32 ∨ (Rect.block (s := S16384x512) S512x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x512.size a ≤ S4096x512.size a
  hwx1_1 : ∀ i : grid1.Coords, EltTy.bits .f32 = 32 ∨ (Rect.block (s := S4096x512) S4096x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x4096.size a ≤ S16384x4096.size a
  hwx1_2 : ∀ i : grid1.Coords, EltTy.bits .f32 = 32 ∨ (Rect.block (s := S16384x4096) S512x4096.size (cc1_transform_2 i) (hinb1_2 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S512x512_S4096x512_S512x4096_1_1_0_0_n_n : DotDims S512x512 S4096x512 S512x4096 where
  lhsContracting := [1]
  rhsContracting := [1]
  lhsNonContracting := [0]
  rhsNonContracting := [0]
  lhsBatch := []
  rhsBatch := []
  wf := dot_S512x512_S4096x512_S512x4096_1_1_0_0_n_n_wf

abbrev win0_0 : Pipeline.Window sig grid0 :=
  Pipeline.Window.ofSpec (Memref.whole main_v9) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S4096x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S512x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16384x512 : Shape := ⟨2, ![16384, 512]⟩
abbrev S2x64x512 : Shape := ⟨3, ![2, 64, 512]⟩
abbrev S512x1024 : Shape := ⟨2, ![512, 1024]⟩
abbrev S512 : Shape := ⟨1, ![512]⟩
abbrev S1x64x512 : Shape := ⟨3, ![1, 64, 512]⟩
abbrev S64x512 : Shape := ⟨2, ![64, 512]⟩
abbrev S64x1x512 : Shape := ⟨3, ![64, 1, 512]⟩
abbrev S64x64x512 : Shape := ⟨3, ![64, 64, 512]⟩
abbrev S64x64x1024 : Shape := ⟨3, ![64, 64, 1024]⟩
abbrev S4096x1024 : Shape := ⟨2, ![4096, 1024]⟩
abbrev S1024x512 : Shape := ⟨2, ![1024, 512]⟩
abbrev S4096x512 : Shape := ⟨2, ![4096, 512]⟩
abbrev S1x512 : Shape := ⟨2, ![1, 512]⟩
abbrev S_ : Shape := ⟨0, ![]⟩
abbrev S16384 : Shape := ⟨1, ![16384]⟩
abbrev S16384x1 : Shape := ⟨2, ![16384, 1]⟩
abbrev S4096 : Shape := ⟨1, ![4096]⟩
abbrev S1x4096 : Shape := ⟨2, ![1, 4096]⟩
abbrev S512x4096 : Shape := ⟨2, ![512, 4096]⟩
abbrev S16384x4096 : Shape := ⟨2, ![16384, 4096]⟩

abbrev nBuf : Space → Nat
  | .hbm => 36
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S2x64x512, .f32⟩
  | .hbm, ⟨2, _⟩ => ⟨S512x1024, .f32⟩
  | .hbm, ⟨3, _⟩ => ⟨S512, .f32⟩
  | .hbm, ⟨4, _⟩ => ⟨S1x64x512, .f32⟩
  | .hbm, ⟨5, _⟩ => ⟨S64x512, .f32⟩
  | .hbm, ⟨6, _⟩ => ⟨S64x1x512, .f32⟩
  | .hbm, ⟨7, _⟩ => ⟨S64x64x512, .f32⟩
  | .hbm, ⟨8, _⟩ => ⟨S1x64x512, .f32⟩
  | .hbm, ⟨9, _⟩ => ⟨S64x512, .f32⟩
  | .hbm, ⟨10, _⟩ => ⟨S1x64x512, .f32⟩
  | .hbm, ⟨11, _⟩ => ⟨S64x64x512, .f32⟩
  | .hbm, ⟨12, _⟩ => ⟨S64x64x1024, .f32⟩
  | .hbm, ⟨13, _⟩ => ⟨S4096x1024, .f32⟩
  | .hbm, ⟨14, _⟩ => ⟨S1024x512, .f32⟩
  | .hbm, ⟨15, _⟩ => ⟨S4096x512, .f32⟩
  | .hbm, ⟨16, _⟩ => ⟨S1x512, .f32⟩
  | .hbm, ⟨17, _⟩ => ⟨S4096x512, .f32⟩
  | .hbm, ⟨18, _⟩ => ⟨S4096x512, .f32⟩
  | .hbm, ⟨19, _⟩ => ⟨S16384x512, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S4096x512, .f32⟩
  | .hbm, ⟨24, _⟩ => ⟨S_, .f32⟩
  | .hbm, ⟨25, _⟩ => ⟨S4096, .f32⟩
  | .hbm, ⟨26, _⟩ => ⟨S1x4096, .f32⟩
  | .hbm, ⟨27, _⟩ => ⟨S512x4096, .f32⟩
  | .hbm, ⟨28, _⟩ => ⟨S16384x4096, .f32⟩
  | .hbm, ⟨29, _⟩ => ⟨S_, .f32⟩
  | .hbm, ⟨30, _⟩ => ⟨S16384x4096, .f32⟩
  | .hbm, ⟨31, _⟩ => ⟨S16384x4096, .f32⟩
  | .hbm, ⟨32, _⟩ => ⟨S16384x4096, .f32⟩
  | .hbm, ⟨33, _⟩ => ⟨S16384x4096, .f32⟩
  | .hbm, ⟨34, _⟩ => ⟨S16384x4096, .f32⟩
  | .hbm, ⟨35, _⟩ => ⟨S16384x4096, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]

class Facts₀ : Prop where
  slices_S2x64x512_S1x64x512_0_0_0 : S2x64x512.Slices ![0, 0, 0] S1x64x512
  shapeCasts_S1x64x512_S64x512 : S1x64x512.ShapeCasts S64x512
  bcast_S64x512_S64x1x512_0_2 : S64x512.BroadcastsInDim S64x1x512 (![0, 2] : Fin 2 → Fin S64x1x512.rank)
  bcast_S64x1x512_S64x64x512_0_1_2 : S64x1x512.BroadcastsInDim S64x64x512 (![0, 1, 2] : Fin 3 → Fin S64x64x512.rank)
  slices_S2x64x512_S1x64x512_1_0_0 : S2x64x512.Slices ![1, 0, 0] S1x64x512
  bcast_S64x512_S1x64x512_1_2 : S64x512.BroadcastsInDim S1x64x512 (![1, 2] : Fin 2 → Fin S1x64x512.rank)
  bcast_S1x64x512_S64x64x512_0_1_2 : S1x64x512.BroadcastsInDim S64x64x512 (![0, 1, 2] : Fin 3 → Fin S64x64x512.rank)
  concatenates_S64x64x512_S64x64x512_S64x64x1024_d2 : Shape.Concatenates [S64x64x512, S64x64x512] S64x64x1024 2
  shapeCasts_S64x64x1024_S4096x1024 : S64x64x1024.ShapeCasts S4096x1024
  transposes_S512x1024_S1024x512_1_0 : S512x1024.Transposes [1, 0] S1024x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S4096x512_S4096_d1 : S4096x512.ReducesTo [1] S4096
  bcast_S4096_S1x4096_1 : S4096.BroadcastsInDim S1x4096 (![1] : Fin 1 → Fin S1x4096.rank)
  transposes_S4096x512_S512x4096_1_0 : S4096x512.Transposes [1, 0] S512x4096
  bcast_S_S16384x4096 : S_.BroadcastsInDim S16384x4096 (![] : Fin 0 → Fin S16384x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  dot_S4096x1024_S1024x512_S4096x512_1_0_0_1_n_n_wf : DotDims.WF S4096x1024 S1024x512 S4096x512 [1] [0] [0] [1] [] []
  dot_S16384x512_S512x4096_S16384x4096_1_0_0_1_n_n_wf : DotDims.WF S16384x512 S512x4096 S16384x4096 [1] [0] [0] [1] [] []

variable [Facts₀]

def dot_S4096x1024_S1024x512_S4096x512_1_0_0_1_n_n : DotDims S4096x1024 S1024x512 S4096x512 where
  lhsContracting := [1]
  rhsContracting := [0]
  lhsNonContracting := [0]
  rhsNonContracting := [1]
  lhsBatch := []
  rhsBatch := []
  wf := dot_S4096x1024_S1024x512_S4096x512_1_0_0_1_n_n_wf
def dot_S16384x512_S512x4096_S16384x4096_1_0_0_1_n_n : DotDims S16384x512 S512x4096 S16384x4096 where
  lhsContracting := [1]
  rhsContracting := [0]
  lhsNonContracting := [0]
  rhsNonContracting := [1]
  lhsBatch := []
  rhsBatch := []
  wf := dot_S16384x512_S512x4096_S16384x4096_1_0_0_1_n_n_wf

class Facts : Prop extends Facts₀ where

variable [Facts]
-- ==== Proof.MixPayload.lean ====
/-
  One block of the mixing kernel, read at an index. The body multiplies a 1024-row block of the pair table by the
  whole mixing weight, contracting the second axis of both (so entry (r, d) pairs row r of the block with row d
  of the weight), into a zero accumulator, and adds the bias row broadcast over the block's rows. The narrowing
  to bf16 before the product is the identity on extended reals, so entry (r, d) is
  ∑_k block(r, k) · weight(d, k) + bias(0, d).
-/
import proofs.«165343_j80049600463053_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.MixPayload

open Cert.KernelIdeal Cert.KernelIdeal.Gen Idealize.ShloMosaic Idealize.ShloMosaic.ValueIdx

/-- The product's left operand is read at the output's row … -/
theorem lhs_0 (i : S1024x512.Idx) (q : dot_S1024x1024_S512x1024_S1024x512_1_1_0_0_n_n.contr.Idx) :
    (dot_S1024x1024_S512x1024_S1024x512_1_1_0_0_n_n.lhsIdx i q 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
/-- … and the contraction coordinate; -/
theorem lhs_1 (i : S1024x512.Idx) (q : dot_S1024x1024_S512x1024_S1024x512_1_1_0_0_n_n.contr.Idx) :
    (dot_S1024x1024_S512x1024_S1024x512_1_1_0_0_n_n.lhsIdx i q 1).val = (q ⟨0, by decide⟩).val :=
  dot_S1024x1024_S512x1024_S1024x512_1_1_0_0_n_n.lhsIdx_val_of_single rfl i q
/-- the right operand at the output's column, which is ITS row (both operands contract their second axis), … -/
theorem rhs_0 (i : S1024x512.Idx) (q : dot_S1024x1024_S512x1024_S1024x512_1_1_0_0_n_n.contr.Idx) :
    (dot_S1024x1024_S512x1024_S1024x512_1_1_0_0_n_n.rhsIdx i q 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
/-- … and the contraction coordinate. -/
theorem rhs_1 (i : S1024x512.Idx) (q : dot_S1024x1024_S512x1024_S1024x512_1_1_0_0_n_n.contr.Idx) :
    (dot_S1024x1024_S512x1024_S1024x512_1_1_0_0_n_n.rhsIdx i q 1).val = (q ⟨0, by decide⟩).val :=
  dot_S1024x1024_S512x1024_S1024x512_1_1_0_0_n_n.rhsIdx_val_of_single rfl i q

/-- The product into the zero accumulator at (r, d): the sum over k of left(r, k) · right(d, k). -/
theorem product_apply (a : FVec Ideal S1024x1024 .bf16) (b : FVec Ideal S512x1024 .bf16) (r : Fin 1024) (d : Fin 512) :
    matmul dot_S1024x1024_S512x1024_S1024x512_1_1_0_0_n_n none a b (constant S1024x512 .f32 0x00000000#32) (ix2 r d)
      = ∑ k : Fin 1024, a (ix2 r k) * b (ix2 d k) := by
  simp only [matmul]
  rw [Ideal.matmul_constant_zero_apply, ← Equiv.sum_comp (contrEquiv1 dot_S1024x1024_S512x1024_S1024x512_1_1_0_0_n_n 1024 rfl rfl).symm]
  refine Finset.sum_congr rfl fun k _ => ?_
  have hk := contrEquiv1_symm_val dot_S1024x1024_S512x1024_S1024x512_1_1_0_0_n_n 1024 rfl rfl k
  have el : dot_S1024x1024_S512x1024_S1024x512_1_1_0_0_n_n.lhsIdx (ix2 r d) ((contrEquiv1 dot_S1024x1024_S512x1024_S1024x512_1_1_0_0_n_n 1024 rfl rfl).symm k) = ix2 r k := funext fun a => Fin.ext (by
    match a with
    | ⟨0, _⟩ => exact lhs_0 _ _
    | ⟨1, _⟩ => exact (lhs_1 _ _).trans hk)
  have er : dot_S1024x1024_S512x1024_S1024x512_1_1_0_0_n_n.rhsIdx (ix2 r d) ((contrEquiv1 dot_S1024x1024_S512x1024_S1024x512_1_1_0_0_n_n 1024 rfl rfl).symm k) = ix2 d k := funext fun a => Fin.ext (by
    match a with
    | ⟨0, _⟩ => exact rhs_0 _ _
    | ⟨1, _⟩ => exact (rhs_1 _ _).trans hk)
  rw [el, er]

/-- The stored block at (r, d): ∑_k block(r, k) · weight(d, k) + bias(0, d). -/
theorem pay_apply (x0 : Vec Ideal S1024x1024 .f32) (x1 : Vec Ideal S512x1024 .f32) (x2 : Vec Ideal S1x512 .f32) (r : Fin 1024) (d : Fin 512) :
    k0_pay1 (F := Ideal) x0 x1 x2 (ix2 r d) = (∑ k : Fin 1024, x0 (ix2 r k) * x1 (ix2 d k)) + x2 (ix2 (0 : Fin 1) d) := by
  unfold k0_pay1
  show (matmul (F := Ideal) dot_S1024x1024_S512x1024_S1024x512_1_1_0_0_n_n none (truncf (F := Ideal) .bf16 (shapeCast S1024x1024 x0 shapeCasts_S1024x1024_S1024x1024 : FVec Ideal S1024x1024 .f32) bitsLt_bf16_f32) (truncf (F := Ideal) .bf16 (x1 : FVec Ideal S512x1024 .f32) bitsLt_bf16_f32) (constant (F := Ideal) S1024x512 .f32 0x00000000#32) : FVec Ideal S1024x512 .f32) (ix2 r d)
      + (broadcastTo S1024x512 (shapeCast S1x512 x2 shapeCasts_S1x512_S1x512 : FVec Ideal S1x512 .f32) broadcasts_S1x512_S1024x512 : FVec Ideal S1024x512 .f32) (ix2 r d) = _
  rw [product_apply, broadcastTo_1b_ab_apply, shapeCast_self, shapeCast_self]
  rfl

end Cert.KernelIdeal.MixPayload

end
-- ==== Proof.Spec.lean ====
/-
  What both programs compute, index by index, on the extended reals.

  Stage one, the mixed prototypes: entry (j, d) is the inner product of row j of the pair table with row d of
  the mixing weight, plus entry d of the bias.
  Stage two, the squared distances: entry (i, j) is |x_i|² − c · ⟨x_i, p_j⟩ + |p_j|², read as
  (|x_i|² − c · ⟨x_i, p_j⟩) + |p_j|², each of the three terms a sum over the 512 coordinates; c is the
  constant both programs write as the same float literal, so its value is never needed.
  No law of arithmetic joins the two programs: they compute these very sums in this very order, and the
  proofs only read each program's operations at an index.
-/
import Idealize.ShloMosaic.PureOps.Ideal
import Idealize.ShloMosaic.Lib.ValueIdx

noncomputable section

open scoped BigOperators

namespace Cert.SqDist

open Idealize.ShloMosaic Idealize.ShloMosaic.ValueIdx

/-- The mixed prototypes: ⟨P_j, W_d⟩ + b_d. -/
def mixed (P : FVec Ideal ⟨2, ![4096, 1024]⟩ .f32) (W : FVec Ideal ⟨2, ![512, 1024]⟩ .f32) (b : FVec Ideal ⟨1, ![512]⟩ .f32) :
    FVec Ideal ⟨2, ![4096, 512]⟩ .f32 :=
  fun i => (∑ k : Fin 1024, P (ix2 (i 0) k) * W (ix2 (i 1) k)) + b (ix1 (i 1))

/-- The squared distances: (|x_i|² − c · ⟨x_i, p_j⟩) + |p_j|². -/
def sqdist (c : EReal) (x : FVec Ideal ⟨2, ![16384, 512]⟩ .f32) (p : FVec Ideal ⟨2, ![4096, 512]⟩ .f32) :
    FVec Ideal ⟨2, ![16384, 4096]⟩ .f32 :=
  fun i => ((∑ k : Fin 512, x (ix2 (i 0) k) * x (ix2 (i 0) k)) - c * ∑ k : Fin 512, x (ix2 (i 0) k) * p (ix2 (i 1) k))
    + ∑ k : Fin 512, p (ix2 (i 1) k) * p (ix2 (i 1) k)

end Cert.SqDist

end
-- ==== Proof.MixValue.lean ====
/-
  The array the mixing region leaves. Its grid has four points; point t stages rows 1024·t … 1024·t + 1023 of the
  pair table, the whole mixing weight and the bias row, and writes back rows 1024·t … of the result. So the block
  written at point t is the restriction to those rows of ONE function of the arrays as the region finds them —
  entry (j, d) is ⟨P_j, W_d⟩ + bias(0, d) — and the four blocks tile the 4096 rows (row j lies in block j / 1024),
  so after the region the result array holds that function everywhere.
-/
import proofs.«165343_j80049600463053_1_alg».proof.Proof.Gen.KernelIdeal.Frame
import proofs.«165343_j80049600463053_1_alg».proof.Proof.MixPayload
import proofs.«165343_j80049600463053_1_alg».proof.Proof.Spec

set_option maxRecDepth 16384

noncomputable section

open scoped BigOperators

namespace Cert.KernelIdeal.MixValue

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_off : (![0, 0] : Fin 2 → Nat) = fun _ => 0 := funext fun a => by fin_cases a <;> rfl

/-- The index maps over the four points: the pair table's and the result's block index is the point on the row axis,
    every other block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Each of the four row blocks is some point's. -/
theorem idx_onto : ∀ q : Fin 4, ∃ t : Fin cfg0.N, t.val = q.val :=
  (by decide +kernel : ∀ q : Fin 4, ∃ t : Fin grid0.N, t.val = q.val)

/-- The three arrays the region reads, as it finds them, at their literal types. -/
abbrev pairsArr (c : Dev nD) : FVec Ideal S4096x1024 .f32 := V c main_v9
abbrev weightArr (c : Dev nD) : FVec Ideal S512x1024 .f32 := V c main_arg2
abbrev biasArr (c : Dev nD) : FVec Ideal S1x512 .f32 := V c main_v10

/-- The mixed prototypes of the arrays as the region finds them (the bias through its [1, 512] copy). -/
abbrev table (c : Dev nD) : FVec Ideal ⟨2, ![4096, 512]⟩ .f32 :=
  Cert.SqDist.mixed (pairsArr V c) (weightArr V c) (fun i => biasArr V c (ix2 (0 : Fin 1) (i 0)))

/-- What point t writes back is block t of the table. -/
theorem flushed_eq (c : Dev nD) (t : Fin cfg0.N) :
    (dat0 V c).flushed 3 t = ((cfg0.win 3).blk t).view.read (Elt Ideal) (table V c) := by
  show (cfg0.win 3).cut (grid0.coords t) ((dat0 V c).after 3 t) = _
  rw [after0_3]
  unfold out0_3
  rw [View.canon_unit_zero zero_off]
  simp only [View.ld_unit_zero (S := S1024x1024) zero_off, View.ld_unit_zero (S := S512x1024) zero_off,
    View.ld_unit_zero (S := S1x512) zero_off]
  obtain ⟨e00, e01, e10, e11, e20, e21, e30, e31⟩ := idx_facts t
  funext j
  obtain ⟨r, d, rfl⟩ : ∃ (r : Fin 1024) (d : Fin 512), j = ix2 r d := ⟨j 0, j 1, eq_ix2 j⟩
  show k0_pay1 (F := Ideal) (iblk0 V c 0 t) (iblk0 V c 1 t) (iblk0 V c 2 t) (ix2 r d)
    = table V c (((cfg0.win 3).blk t).view.emb (ix2 r d))
  refine (MixPayload.pay_apply (iblk0 V c 0 t) (iblk0 V c 1 t) (iblk0 V c 2 t) r d).trans ?_
  show _ = (∑ k : Fin 1024, pairsArr V c (ix2 ((((cfg0.win 3).blk t).view.emb (ix2 r d)) 0) k)
      * weightArr V c (ix2 ((((cfg0.win 3).blk t).view.emb (ix2 r d)) 1) k))
    + biasArr V c (ix2 (0 : Fin 1) ((((cfg0.win 3).blk t).view.emb (ix2 r d)) 1))
  refine congrArg₂ (· + ·) (Finset.sum_congr rfl fun k _ => congrArg₂ (· * ·) ?_ ?_) ?_
  · show pairsArr V c (((cfg0.win 0).blk t).view.emb (ix2 r k))
      = pairsArr V c (ix2 ((((cfg0.win 3).blk t).view.emb (ix2 r d)) 0) k)
    refine congrArg _ (funext fun a => Fin.ext ?_)
    match a with
    | ⟨0, _⟩ => show win0_0.index t (0 : Fin 2) * 1024 + 1 * r.val = win0_3.index t (0 : Fin 2) * 1024 + 1 * r.val; omega
    | ⟨1, _⟩ => show win0_0.index t (1 : Fin 2) * 1024 + 1 * k.val = k.val; omega
  · show weightArr V c (((cfg0.win 1).blk t).view.emb (ix2 d k))
      = weightArr V c (ix2 ((((cfg0.win 3).blk t).view.emb (ix2 r d)) 1) k)
    refine congrArg _ (funext fun a => Fin.ext ?_)
    match a with
    | ⟨0, _⟩ => show win0_1.index t (0 : Fin 2) * 512 + 1 * d.val = win0_3.index t (1 : Fin 2) * 512 + 1 * d.val; omega
    | ⟨1, _⟩ => show win0_1.index t (1 : Fin 2) * 1024 + 1 * k.val = k.val; omega
  · show biasArr V c (((cfg0.win 2).blk t).view.emb (ix2 (0 : Fin 1) d))
      = biasArr V c (ix2 (0 : Fin 1) ((((cfg0.win 3).blk t).view.emb (ix2 r d)) 1))
    refine congrArg _ (funext fun a => Fin.ext ?_)
    match a with
    | ⟨0, _⟩ => show win0_2.index t (0 : Fin 2) * 1 + 1 * 0 = 0; omega
    | ⟨1, _⟩ => show win0_2.index t (1 : Fin 2) * 512 + 1 * d.val = win0_3.index t (1 : Fin 2) * 512 + 1 * d.val; omega

/-- An index of the result is in point t's block iff each coordinate is in the block's range on its axis. -/
theorem mem_blk (t : Fin cfg0.N) (i : S4096x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v11).slice (win0_3.rect t)).set ↔ _
  rw [View.set_slice_whole, Rect.mem_set_unit]
  exact Iff.rfl

/-- Every row lies in the block of the point row / 1024. -/
theorem cover (i : S4096x512.Idx) : ∃ t : Fin cfg0.N, (cfg0.win 3).flush t = true ∧ i ∈ ((cfg0.win 3).blk t).view.set := by
  have hi0 : (i 0).val < 4096 := (i 0).isLt
  have hi1 : (i 1).val < 512 := (i 1).isLt
  obtain ⟨t, ht⟩ := idx_onto ⟨(i 0).val / 1024, by omega⟩
  have ht' : t.val = (i 0).val / 1024 := ht
  obtain ⟨-, -, -, -, -, -, e30, e31⟩ := idx_facts t
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- After the region the result array is the table. -/
theorem final (c : Dev nD) : (dat0 V c).arrAt 3 cfg0.N = table V c :=
  (dat0 V c).arrAt_eq_of_cover 3 (table V c) (fun t _ => flushed_eq V c t) cover

end Cert.KernelIdeal.MixValue

end
-- ==== Proof.DistPayload.lean ====
/-
  One block of the distance kernel, read at an index. From a 512-row block of x and the whole table p of mixed
  prototypes the body forms the row sums of squares of both (lane sums over the 512 coordinates, the first kept
  as a column, the second as a row), the product of the block with p contracting the second axis of both into a
  zero accumulator (the narrowing to bf16 before it is the identity on extended reals), and stores
  (|x_r|² − c · ⟨x_r, p_j⟩) + |p_j|² at (r, j), c the broadcast constant.
-/
import proofs.«165343_j80049600463053_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.DistPayload

open Cert.KernelIdeal Cert.KernelIdeal.Gen Idealize.ShloMosaic Idealize.ShloMosaic.ValueIdx

/-- The product's left operand is read at the output's row … -/
theorem lhs_0 (i : S512x4096.Idx) (q : dot_S512x512_S4096x512_S512x4096_1_1_0_0_n_n.contr.Idx) :
    (dot_S512x512_S4096x512_S512x4096_1_1_0_0_n_n.lhsIdx i q 0).val = (i 0).val := by
  unfold DotDims.lhsIdx
  rw [dif_neg (show ¬(0 : Fin S512x512.rank) ∈ dot_S512x512_S4096x512_S512x4096_1_1_0_0_n_n.lhsBatch by decide), dif_pos (show (0 : Fin S512x512.rank) ∈ dot_S512x512_S4096x512_S512x4096_1_1_0_0_n_n.lhsNonContracting by decide)]
  rfl
/-- … and the contraction coordinate; -/
theorem lhs_1 (i : S512x4096.Idx) (q : dot_S512x512_S4096x512_S512x4096_1_1_0_0_n_n.contr.Idx) :
    (dot_S512x512_S4096x512_S512x4096_1_1_0_0_n_n.lhsIdx i q 1).val = (q ⟨0, by decide⟩).val :=
  dot_S512x512_S4096x512_S512x4096_1_1_0_0_n_n.lhsIdx_val_of_single rfl i q
/-- the right operand at the output's column, which is ITS row, … -/
theorem rhs_0 (i : S512x4096.Idx) (q : dot_S512x512_S4096x512_S512x4096_1_1_0_0_n_n.contr.Idx) :
    (dot_S512x512_S4096x512_S512x4096_1_1_0_0_n_n.rhsIdx i q 0).val = (i 1).val := by
  unfold DotDims.rhsIdx
  rw [dif_neg (show ¬(0 : Fin S4096x512.rank) ∈ dot_S512x512_S4096x512_S512x4096_1_1_0_0_n_n.rhsBatch by decide), dif_pos (show (0 : Fin S4096x512.rank) ∈ dot_S512x512_S4096x512_S512x4096_1_1_0_0_n_n.rhsNonContracting by decide)]
  rfl
/-- … and the contraction coordinate. -/
theorem rhs_1 (i : S512x4096.Idx) (q : dot_S512x512_S4096x512_S512x4096_1_1_0_0_n_n.contr.Idx) :
    (dot_S512x512_S4096x512_S512x4096_1_1_0_0_n_n.rhsIdx i q 1).val = (q ⟨0, by decide⟩).val :=
  dot_S512x512_S4096x512_S512x4096_1_1_0_0_n_n.rhsIdx_val_of_single rfl i q

/-- The product into the zero accumulator at (r, j): the sum over k of left(r, k) · right(j, k). -/
theorem product_apply (a : FVec Ideal S512x512 .bf16) (b : FVec Ideal S4096x512 .bf16) (r : Fin 512) (j : Fin 4096) :
    matmul dot_S512x512_S4096x512_S512x4096_1_1_0_0_n_n none a b (constant S512x4096 .f32 0x00000000#32) (ix2 r j)
      = ∑ k : Fin 512, a (ix2 r k) * b (ix2 j k) := by
  simp only [matmul]
  rw [Ideal.matmul_constant_zero_apply, ← Equiv.sum_comp (contrEquiv1 dot_S512x512_S4096x512_S512x4096_1_1_0_0_n_n 512 rfl rfl).symm]
  refine Finset.sum_congr rfl fun k _ => ?_
  have hk := contrEquiv1_symm_val dot_S512x512_S4096x512_S512x4096_1_1_0_0_n_n 512 rfl rfl k
  have el : dot_S512x512_S4096x512_S512x4096_1_1_0_0_n_n.lhsIdx (ix2 r j) ((contrEquiv1 dot_S512x512_S4096x512_S512x4096_1_1_0_0_n_n 512 rfl rfl).symm k) = ix2 r k := funext fun a => Fin.ext (by
    match a with
    | ⟨0, _⟩ => exact lhs_0 _ _
    | ⟨1, _⟩ => exact (lhs_1 _ _).trans hk)
  have er : dot_S512x512_S4096x512_S512x4096_1_1_0_0_n_n.rhsIdx (ix2 r j) ((contrEquiv1 dot_S512x512_S4096x512_S512x4096_1_1_0_0_n_n 512 rfl rfl).symm k) = ix2 j k := funext fun a => Fin.ext (by
    match a with
    | ⟨0, _⟩ => exact rhs_0 _ _
    | ⟨1, _⟩ => exact (rhs_1 _ _).trans hk)
  rw [el, er]

/-- A row's sum of squares kept as a column: the [512] lane sums cast to [512, 1], read at (r, 0). -/
theorem column_apply (v : FVec Ideal S512 .f32) (r : Fin 512) (u : Fin 1) :
    shapeCast S512x1 v shapeCasts_S512_S512x1 (ix2 r u) = v (ix1 r) :=
  shapeCast_apply v shapeCasts_S512_S512x1 _ _ (by
    have hu : u.val = 0 := by omega
    rw [Shape.rowMajor_val_two, Shape.rowMajor_val_one]
    show r.val = r.val * 1 + u.val
    omega)

/-- That column broadcast over the 4096 columns reads its row's entry. -/
theorem column_bcast_apply (v : FVec Ideal S512x1 .f32) (r : Fin 512) (j : Fin 4096) :
    broadcastTo S512x4096 v broadcasts_S512x1_S512x4096 (ix2 r j) = v (ix2 r (0 : Fin 1)) := by
  refine broadcastTo_apply v broadcasts_S512x1_S512x4096 (ix2 r j) (ix2 r (0 : Fin 1)) fun ax => ?_
  match ax with
  | ⟨0, _⟩ => rfl
  | ⟨1, _⟩ => rfl

/-- The lane sum of a [512, 512] block over its second axis at row r (the zero accumulator is the sum's neutral
    element, so nothing is added to the sum). -/
theorem rowsum_x_apply (v : FVec Ideal S512x512 .f32) (hφ : FKind.Formats .f32) (hacc : (0x00000000#32 : BitVec 32) = 0x00000000#32) (r : Fin 512) :
    multiReduction (F := Ideal) .add [1] S512 v 0x00000000#32 reduces_S512x512_S512 hφ hacc (ix1 r) = ∑ k : Fin 512, v (ix2 r k) := by
  refine (Ideal.multiReduction_add_single v 0x00000000#32 reduces_S512x512_S512 hφ hacc (ix1 r)).trans ?_
  refine Finset.sum_congr rfl fun k _ => congrArg v (funext fun a => Fin.ext ?_)
  match a with
  | ⟨0, _⟩ => rfl
  | ⟨1, _⟩ => rfl

/-- The lane sum of the [4096, 512] table over its second axis at row j. -/
theorem rowsum_p_apply (v : FVec Ideal S4096x512 .f32) (hφ : FKind.Formats .f32) (hacc : (0x00000000#32 : BitVec 32) = 0x00000000#32) (j : Fin 4096) :
    multiReduction (F := Ideal) .add [1] S4096 v 0x00000000#32 reduces_S4096x512_S4096 hφ hacc (ix1 j) = ∑ k : Fin 512, v (ix2 j k) := by
  refine (Ideal.multiReduction_add_single v 0x00000000#32 reduces_S4096x512_S4096 hφ hacc (ix1 j)).trans ?_
  refine Finset.sum_congr rfl fun k _ => congrArg v (funext fun a => Fin.ext ?_)
  match a with
  | ⟨0, _⟩ => rfl
  | ⟨1, _⟩ => rfl

/-- The stored block at (r, j): (|x_r|² − c · ⟨x_r, p_j⟩) + |p_j|². -/
theorem pay_apply (x0 : Vec Ideal S512x512 .f32) (x1 : Vec Ideal S4096x512 .f32) (r : Fin 512) (j : Fin 4096) :
    k1_pay1 (F := Ideal) x0 x1 (ix2 r j)
      = ((∑ k : Fin 512, x0 (ix2 r k) * x0 (ix2 r k)) - Ideal.ofBits .f32 0x40000000#32 * ∑ k : Fin 512, x0 (ix2 r k) * x1 (ix2 j k))
        + ∑ k : Fin 512, x1 (ix2 j k) * x1 (ix2 j k) := by
  unfold k1_pay1
  rw [shapeCast_self]
  show ((broadcastTo S512x4096 (shapeCast S512x1 (multiReduction (F := Ideal) .add [1] S512 (mulf (F := Ideal) (x0 : FVec Ideal S512x512 .f32) x0) 0x00000000#32 reduces_S512x512_S512 (.inl rfl) rfl) shapeCasts_S512_S512x1 : FVec Ideal S512x1 .f32) broadcasts_S512x1_S512x4096 : FVec Ideal S512x4096 .f32) (ix2 r j)
        - Ideal.ofBits .f32 0x40000000#32 * (matmul (F := Ideal) dot_S512x512_S4096x512_S512x4096_1_1_0_0_n_n none (truncf (F := Ideal) .bf16 (x0 : FVec Ideal S512x512 .f32) bitsLt_bf16_f32) (truncf (F := Ideal) .bf16 (x1 : FVec Ideal S4096x512 .f32) bitsLt_bf16_f32) (constant (F := Ideal) S512x4096 .f32 0x00000000#32) : FVec Ideal S512x4096 .f32) (ix2 r j))
      + (broadcastTo S512x4096 (shapeCast S1x4096 (multiReduction (F := Ideal) .add [1] S4096 (mulf (F := Ideal) (x1 : FVec Ideal S4096x512 .f32) x1) 0x00000000#32 reduces_S4096x512_S4096 (.inl rfl) rfl) shapeCasts_S4096_S1x4096 : FVec Ideal S1x4096 .f32) broadcasts_S1x4096_S512x4096 : FVec Ideal S512x4096 .f32) (ix2 r j) = _
  rw [column_bcast_apply, column_apply, rowsum_x_apply, product_apply, broadcastTo_1b_ab_apply, shapeCast_a_1a_apply, rowsum_p_apply]
  rfl

end Cert.KernelIdeal.DistPayload

end
-- ==== Proof.DistValue.lean ====
/-
  The array the distance region leaves. Its grid has 32 points; point t stages rows 512·t … 512·t + 511 of x and the
  whole table p, and writes back rows 512·t … of the result. So the block written at point t is the restriction to
  those rows of ONE function of the arrays as the region finds them — entry (i, j) is
  (|x_i|² − c · ⟨x_i, p_j⟩) + |p_j|² — and the 32 blocks tile the 16384 rows (row i lies in block i / 512), so
  after the region the result array holds that function everywhere.
-/
import proofs.«165343_j80049600463053_1_alg».proof.Proof.Gen.KernelIdeal.Frame
import proofs.«165343_j80049600463053_1_alg».proof.Proof.DistPayload
import proofs.«165343_j80049600463053_1_alg».proof.Proof.Spec

set_option maxRecDepth 16384

noncomputable section

open scoped BigOperators

namespace Cert.KernelIdeal.DistValue

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_off : (![0, 0] : Fin 2 → Nat) = fun _ => 0 := funext fun a => by fin_cases a <;> rfl

/-- The index maps over the 32 points: x's and the result's block index is the point on the row axis, every other
    block index is zero. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Each of the 32 row blocks is some point's. -/
theorem idx_onto : ∀ q : Fin 32, ∃ t : Fin cfg1.N, t.val = q.val :=
  (by decide +kernel : ∀ q : Fin 32, ∃ t : Fin grid1.N, t.val = q.val)

/-- The squared distances of the arrays as the region finds them. -/
abbrev table (c : Dev nD) : FVec Ideal ⟨2, ![16384, 4096]⟩ .f32 :=
  Cert.SqDist.sqdist (Ideal.ofBits .f32 0x40000000#32) (V c main_arg0) (V c main_v11)

/-- What point t writes back is block t of the table. -/
theorem flushed_eq (c : Dev nD) (t : Fin cfg1.N) :
    (dat1 V c).flushed 2 t = ((cfg1.win 2).blk t).view.read (Elt Ideal) (table V c) := by
  show (cfg1.win 2).cut (grid1.coords t) ((dat1 V c).after 2 t) = _
  rw [after1_2]
  unfold out1_2
  rw [View.canon_unit_zero zero_off]
  simp only [View.ld_unit_zero (S := S512x512) zero_off, View.ld_unit_zero (S := S4096x512) zero_off]
  obtain ⟨e00, e01, e10, e11, e20, e21⟩ := idx_facts t
  funext y
  obtain ⟨r, j, rfl⟩ : ∃ (r : Fin 512) (j : Fin 4096), y = ix2 r j := ⟨y 0, y 1, eq_ix2 y⟩
  show k1_pay1 (F := Ideal) (iblk1 V c 0 t) (iblk1 V c 1 t) (ix2 r j)
    = table V c (((cfg1.win 2).blk t).view.emb (ix2 r j))
  have hx : ∀ k : Fin 512, iblk1 V c 0 t (ix2 r k)
      = V c main_arg0 (ix2 ((((cfg1.win 2).blk t).view.emb (ix2 r j)) 0) k) := fun k => by
    show V c main_arg0 (((cfg1.win 0).blk t).view.emb (ix2 r k)) = _
    refine congrArg _ (funext fun a => Fin.ext ?_)
    match a with
    | ⟨0, _⟩ => show win1_0.index t (0 : Fin 2) * 512 + 1 * r.val = win1_2.index t (0 : Fin 2) * 512 + 1 * r.val; omega
    | ⟨1, _⟩ => show win1_0.index t (1 : Fin 2) * 512 + 1 * k.val = k.val; omega
  have hp : ∀ k : Fin 512, iblk1 V c 1 t (ix2 j k)
      = V c main_v11 (ix2 ((((cfg1.win 2).blk t).view.emb (ix2 r j)) 1) k) := fun k => by
    show V c main_v11 (((cfg1.win 1).blk t).view.emb (ix2 j k)) = _
    refine congrArg _ (funext fun a => Fin.ext ?_)
    match a with
    | ⟨0, _⟩ => show win1_1.index t (0 : Fin 2) * 4096 + 1 * j.val = win1_2.index t (1 : Fin 2) * 4096 + 1 * j.val; omega
    | ⟨1, _⟩ => show win1_1.index t (1 : Fin 2) * 512 + 1 * k.val = k.val; omega
  refine (DistPayload.pay_apply (iblk1 V c 0 t) (iblk1 V c 1 t) r j).trans ?_
  simp only [hx, hp]
  rfl

/-- An index of the result is in point t's block iff each coordinate is in the block's range on its axis. -/
theorem mem_blk (t : Fin cfg1.N) (i : S16384x4096.Idx) :
    i ∈ ((cfg1.win 2).blk t).view.set ↔ ∀ a : Fin 2, win1_2.index t a * S512x4096.size a ≤ (i a).val ∧ (i a).val < win1_2.index t a * S512x4096.size a + S512x4096.size a := by
  show i ∈ ((View.whole main_v12).slice (win1_2.rect t)).set ↔ _
  rw [View.set_slice_whole, Rect.mem_set_unit]
  exact Iff.rfl

/-- Every row lies in the block of the point row / 512. -/
theorem cover (i : S16384x4096.Idx) : ∃ t : Fin cfg1.N, (cfg1.win 2).flush t = true ∧ i ∈ ((cfg1.win 2).blk t).view.set := by
  have hi0 : (i 0).val < 16384 := (i 0).isLt
  have hi1 : (i 1).val < 4096 := (i 1).isLt
  obtain ⟨t, ht⟩ := idx_onto ⟨(i 0).val / 512, by omega⟩
  have ht' : t.val = (i 0).val / 512 := ht
  obtain ⟨-, -, -, -, e20, e21⟩ := idx_facts t
  refine ⟨t, flush1_2 t, ?_⟩
  rw [mem_blk]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 4096 ≤ (i 1).val ∧ (i 1).val < win1_2.index t (1 : Fin 2) * 4096 + 4096; omega

/-- After the region the result array is the table. -/
theorem final (c : Dev nD) : (dat1 V c).arrAt 2 cfg1.N = table V c :=
  (dat1 V c).arrAt_eq_of_cover 2 (table V c) (fun t _ => flushed_eq V c t) cover

end Cert.KernelIdeal.DistValue

end
-- ==== Proof.KernelValue.lean ====
/-
  The kernel's result as one function of its four arguments.

  Before the first region the host operations lay out the pair table (row 64·j + l is prototype (0, j) followed by
  prototype (1, l)) and copy the bias to a [1, 512] row; they write none of the arguments. The mixing region
  reads the pair table, the weight and that row and leaves the mixed prototypes p; nothing else changes. The
  distance region reads x and p and leaves (|x_i|² − c · ⟨x_i, p_j⟩) + |p_j|² in the result. Chaining the two
  region values through the contents at the segment boundaries gives the result array after the run.
-/
import proofs.«165343_j80049600463053_1_alg».proof.Proof.Gen.KernelIdeal.Frame
import proofs.«165343_j80049600463053_1_alg».proof.Proof.KernelRun
import proofs.«165343_j80049600463053_1_alg».proof.Proof.MixValue
import proofs.«165343_j80049600463053_1_alg».proof.Proof.DistValue
import Idealize.ShloMosaic.Lib.StableHlo.Run
import Idealize.ShloMosaic.Lib.ValueLayout

set_option maxRecDepth 16384

noncomputable section

open scoped BigOperators

namespace Cert.KernelIdeal.KernelValue

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-- The pair table as the host operations lay it out from the prototypes: the two groups sliced, each broadcast
    over the other's index, joined along the feature axis and flattened to 4096 rows. Never opened: the
    reference builds the same table by the same operations. -/
def pairs (x1 : FVec Ideal S2x64x512 .f32) : FVec Ideal S4096x1024 .f32 :=
  shapeCast _ (concatenate S64x64x1024 2
    [⟨S64x64x512, (broadcastInDim S64x64x512 ![0, 1, 2] bcast_S64x1x512_S64x64x512_0_1_2 (broadcastInDim S64x1x512 ![0, 2] bcast_S64x512_S64x1x512_0_2 (shapeCast _ (extractStridedSlice S1x64x512 ![0, 0, 0] x1 slices_S2x64x512_S1x64x512_0_0_0) shapeCasts_S1x64x512_S64x512)))⟩,
     ⟨S64x64x512, (broadcastInDim S64x64x512 ![0, 1, 2] bcast_S1x64x512_S64x64x512_0_1_2 (broadcastInDim S1x64x512 ![1, 2] bcast_S64x512_S1x64x512_1_2 (shapeCast _ (extractStridedSlice S1x64x512 ![1, 0, 0] x1 slices_S2x64x512_S1x64x512_1_0_0) shapeCasts_S1x64x512_S64x512)))⟩]
    concatenates_S64x64x512_S64x64x512_S64x64x1024_d2) shapeCasts_S64x64x1024_S4096x1024

/-- The constant both programs multiply the inner product by. -/
abbrev cst : EReal := Ideal.ofBits .f32 0x40000000#32

/-- The mixed prototypes of the arguments. -/
abbrev protos (c : Dev nD) : FVec Ideal ⟨2, ![4096, 512]⟩ .f32 :=
  Cert.SqDist.mixed (pairs (m ((c : Thread nD τ).loc main_arg1))) (m ((c : Thread nD τ).loc main_arg2)) (m ((c : Thread nD τ).loc main_arg3))

/-! ## What the mixing region finds -/

theorem entry_pairs (c : Dev nD) :
    (V1 m ρ c main_v9 : FVec Ideal S4096x1024 .f32) = pairs (m ((c : Thread nD τ).loc main_arg1)) := by
  show StableHlo.after hostOps0 (W0 m ρ c) (Proc.devRef .tc main_v9) = _
  dsimp only [hostOps0]
  after_results
  rfl

theorem entry_weight (c : Dev nD) :
    (V1 m ρ c main_arg2 : FVec Ideal S512x1024 .f32) = m ((c : Thread nD τ).loc main_arg2) := by
  show StableHlo.after hostOps0 (W0 m ρ c) (Proc.devRef .tc main_arg2) = _
  dsimp only [hostOps0]
  after_results

theorem entry_bias (c : Dev nD) :
    (V1 m ρ c main_v10 : FVec Ideal S1x512 .f32) = shapeCast S1x512 (m ((c : Thread nD τ).loc main_arg3)) shapeCasts_S512_S1x512 := by
  show StableHlo.after hostOps0 (W0 m ρ c) (Proc.devRef .tc main_v10) = _
  dsimp only [hostOps0]
  after_results
  rfl

/-- The bias row read back at (0, d) is the bias at d. -/
theorem bias_row (c : Dev nD) :
    (fun i : (⟨1, ![512]⟩ : Shape).Idx => MixValue.biasArr (V1 m ρ) c (ix2 (0 : Fin 1) (i 0))) = m ((c : Thread nD τ).loc main_arg3) := by
  funext i
  show (V1 m ρ c main_v10 : FVec Ideal S1x512 .f32) (ix2 (0 : Fin 1) (i 0)) = _
  rw [entry_bias]
  exact (shapeCast_a_1a_apply _ _ (0 : Fin 1) (i 0)).trans (congrArg _ (eq_ix1 i).symm)

/-- So the table the mixing region leaves is the mixed prototypes of the arguments. -/
theorem mixed_table (c : Dev nD) : MixValue.table (V1 m ρ) c = protos m c := by
  show Cert.SqDist.mixed (MixValue.pairsArr (V1 m ρ) c) (MixValue.weightArr (V1 m ρ) c) (fun i => MixValue.biasArr (V1 m ρ) c (ix2 (0 : Fin 1) (i 0))) = _
  rw [bias_row]
  show Cert.SqDist.mixed (V1 m ρ c main_v9 : FVec Ideal S4096x1024 .f32) (V1 m ρ c main_arg2 : FVec Ideal S512x1024 .f32) _ = _
  rw [entry_pairs, entry_weight]

/-! ## What the distance region finds -/

theorem mid_x (c : Dev nD) :
    (V2 m ρ c main_arg0 : FVec Ideal S16384x512 .f32) = m ((c : Thread nD τ).loc main_arg0) := by
  refine (W2_of_ne m ρ c main_arg0 (by decide)).trans ?_
  show StableHlo.after hostOps0 (W0 m ρ c) (Proc.devRef .tc main_arg0) = _
  dsimp only [hostOps0]
  after_results

theorem mid_p (c : Dev nD) : (V2 m ρ c main_v11 : FVec Ideal S4096x512 .f32) = protos m c :=
  (W2_arr m ρ c 3).trans ((MixValue.final (V1 m ρ) c).trans (mixed_table m ρ c))

/-! ## The result -/

/-- The last boundary's contents at the result buffer: the squared distances of x and the mixed prototypes. -/
theorem result (c : Dev nD) :
    W3 m ρ c (Proc.devRef .tc main_v12) = Cert.SqDist.sqdist cst (m ((c : Thread nD τ).loc main_arg0)) (protos m c) := by
  refine (W3_arr m ρ c 2).trans ((DistValue.final (V2 m ρ) c).trans ?_)
  show Cert.SqDist.sqdist cst (V2 m ρ c main_arg0 : FVec Ideal S16384x512 .f32) (V2 m ρ c main_v11 : FVec Ideal S4096x512 .f32) = _
  rw [mid_x, mid_p]

/-- The kernel's run: every weakly fair execution terminates with the result array at the specification of the
    arguments, the arguments unchanged. -/
theorem run : θ_run defs (onTc (τ := τ) (main (F := Ideal))) ⟨m, fun _ => 0, ρ⟩ (fun r => ∀ c : Dev nD,
      r.2.mem ((c.tc : Thread nD τ).loc main_v12) = Cert.SqDist.sqdist cst (m ((c.tc : Thread nD τ).loc main_arg0)) (protos m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result m ρ c), (h c).2⟩) (RunValue.run_named m ρ)

end Cert.KernelIdeal.KernelValue

end
-- ==== Proof.RefValue.lean ====
/-
  The reference's result, stage by stage, is the specification: its mixed prototypes are ⟨P_j, W_d⟩ + b_d
  (the transposed weight read back at (d, k), the bias broadcast along the rows), and its last stage is
  (|x_i|² − c · ⟨x_i, p_j⟩) + |p_j|², each host sum being its zero initial value plus the sum over the
  512 coordinates, the transposed prototypes read back at (j, k).
-/
import proofs.«165343_j80049600463053_1_alg».proof.Proof.Gen.ReferenceIdeal.Read
import proofs.«165343_j80049600463053_1_alg».proof.Proof.Spec
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference's mixed prototypes are the specification's, over its own pair table. -/
theorem mixed_eq (x1 : (⟨S2x64x512, .f32⟩ : BufTy).Contents (Elt Ideal)) (x2 : (⟨S512x1024, .f32⟩ : BufTy).Contents (Elt Ideal))
    (x3 : (⟨S512, .f32⟩ : BufTy).Contents (Elt Ideal)) :
    val_main_v14 (F := Ideal) x1 x2 x3 = Cert.SqDist.mixed (val_main_v9 (F := Ideal) x1) x2 x3 := by
  funext i
  have hl : ∀ k : Fin 1024, lidx_main_v11 i k = ix2 (i 0) k := fun k => funext fun a => by
    match a with | ⟨0, _⟩ => rfl | ⟨1, _⟩ => rfl
  have hr : ∀ k : Fin 1024, idx_main_v10 (ridx_main_v11 i k) = ix2 (i 1) k := fun k => funext fun a => by
    match a with | ⟨0, _⟩ => rfl | ⟨1, _⟩ => rfl
  have hb : idx_main_v12 (idx_main_v13 i) = ix1 (i 1) := funext fun a => by
    match a with | ⟨0, _⟩ => rfl
  rw [val_main_v14_apply, val_main_v11_apply, val_main_v13_apply, val_main_v12_apply]
  simp only [val_main_v10_apply, hl, hr, hb, Ideal.addf_def]
  rfl

/-- The reference's result is the specification's squared distances of x and its mixed prototypes. -/
theorem result_eq (x0 : (⟨S16384x512, .f32⟩ : BufTy).Contents (Elt Ideal)) (x1 : (⟨S2x64x512, .f32⟩ : BufTy).Contents (Elt Ideal))
    (x2 : (⟨S512x1024, .f32⟩ : BufTy).Contents (Elt Ideal)) (x3 : (⟨S512, .f32⟩ : BufTy).Contents (Elt Ideal)) :
    val_main_v28 (F := Ideal) x0 x1 x2 x3
      = Cert.SqDist.sqdist (Ideal.ofBits .f32 0x40000000#32) x0 (val_main_v14 (F := Ideal) x1 x2 x3) := by
  funext i
  have hx : ∀ k : Fin 512, idx_main_v16 (idx_main_v17 (idx_main_v25 i)) k = ix2 (i 0) k := fun k => funext fun a => by
    match a with | ⟨0, _⟩ => rfl | ⟨1, _⟩ => rfl
  have hl : ∀ k : Fin 512, lidx_main_v22 i k = ix2 (i 0) k := fun k => funext fun a => by
    match a with | ⟨0, _⟩ => rfl | ⟨1, _⟩ => rfl
  have hr : ∀ k : Fin 512, idx_main_v21 (ridx_main_v22 i k) = ix2 (i 1) k := fun k => funext fun a => by
    match a with | ⟨0, _⟩ => rfl | ⟨1, _⟩ => rfl
  have hp : ∀ k : Fin 512, idx_main_v19 (idx_main_v20 (idx_main_v27 i)) k = ix2 (i 1) k := fun k => funext fun a => by
    match a with | ⟨0, _⟩ => rfl | ⟨1, _⟩ => rfl
  rw [val_main_v28_apply, val_main_v26_apply, val_main_v25_apply, val_main_v17_apply, val_main_v16_apply,
    val_main_v24_apply, val_main_v23_apply, val_main_v22_apply, val_main_v27_apply, val_main_v20_apply, val_main_v19_apply]
  simp only [val_main_cst_apply, val_main_cst_0_apply, val_main_cst_1_apply, val_main_v15_apply, val_main_v18_apply,
    val_main_v21_apply, hx, hl, hr, hp, Ideal.addf_def, Ideal.subf_def, Ideal.mulf_def, Ideal.ofBits_def,
    Ideal.ofBits_zero_f32, zero_add]
  rfl

end Cert.ReferenceIdeal.RefValue

end
-- ==== Proof.lean ====
/-
  The certificate of the pairwise squared-distance kernel against its jnp reference, over the extended reals.

  Both programs first mix two groups of 64 prototypes pairwise through a linear layer, p = pairs · Wᵀ + b (4096
  mixed prototypes of 512 coordinates), then take D(i, j) = |x_i|² − 2 · ⟨x_i, p_j⟩ + |p_j|² for the 16384 rows of x.
  The kernel does it in two grid regions (1024 pair rows per point, then 512 rows of x per point), with its
  matrix products contracting the second axis of both operands and its operands narrowed to bf16, which is the
  identity on extended reals; the reference transposes and uses dot_general. Read at an index the two results
  are the same sums in the same order, so no law of arithmetic and no use of the precondition is needed: the
  kernel's result (Proof/KernelValue.lean) and the reference's (Proof/RefValue.lean) are both the specification
  (Proof/Spec.lean) of the arguments, over the one pair table both build by the same host operations.
  The frames of the two kernel programs are the generated ones; the reference's is its generated run.
-/
import proofs.«165343_j80049600463053_1_alg».proof.Defs
import proofs.«165343_j80049600463053_1_alg».proof.Proof.Gen.Kernel
import proofs.«165343_j80049600463053_1_alg».proof.Proof.Gen.Kernel.Skeleton
import proofs.«165343_j80049600463053_1_alg».proof.Proof.Gen.Kernel.Launch
import proofs.«165343_j80049600463053_1_alg».proof.Proof.Gen.Kernel.Points
import proofs.«165343_j80049600463053_1_alg».proof.Proof.Gen.Kernel.Frame
import proofs.«165343_j80049600463053_1_alg».proof.Proof.Gen.KernelIdeal
import proofs.«165343_j80049600463053_1_alg».proof.Proof.Gen.KernelIdeal.Skeleton
import proofs.«165343_j80049600463053_1_alg».proof.Proof.Gen.KernelIdeal.Launch
import proofs.«165343_j80049600463053_1_alg».proof.Proof.Gen.KernelIdeal.Points
import proofs.«165343_j80049600463053_1_alg».proof.Proof.Gen.KernelIdeal.Frame
import proofs.«165343_j80049600463053_1_alg».proof.Proof.Gen.ReferenceIdeal
import proofs.«165343_j80049600463053_1_alg».proof.Proof.Gen.ReferenceIdeal.Run
import proofs.«165343_j80049600463053_1_alg».proof.Proof.Gen.ReferenceIdeal.Read
import proofs.«165343_j80049600463053_1_alg».proof.Proof.Gen.Pre_finite_inputs
import proofs.«165343_j80049600463053_1_alg».proof.Proof.KernelValue
import proofs.«165343_j80049600463053_1_alg».proof.Proof.RefValue
import Idealize.ShloMosaic.Adequacy
import Idealize.ShloMosaic.Init

noncomputable section

namespace Cert.Proof

open Idealize.ShloMosaic Idealize.ShloMosaic.TcCoe Idealize.SL.Sem

/-- The reference lays out its pair table by the very operations the kernel's host side uses. -/
theorem pairs_eq (x1 : FVec Ideal Cert.ReferenceIdeal.S2x64x512 .f32) :
    Cert.ReferenceIdeal.Read.val_main_v9 (F := Ideal) x1 = Cert.KernelIdeal.KernelValue.pairs x1 := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the specification of arguments that agree. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.result_eq,
    Cert.ReferenceIdeal.RefValue.mixed_eq, pairs_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
